-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x640 : Shape := ⟨2, ![131072, 640]⟩
abbrev S131072 : Shape := ⟨1, ![131072]⟩
abbrev S640x256 : Shape := ⟨2, ![640, 256]⟩
abbrev S256 : Shape := ⟨1, ![256]⟩
abbrev S256x32 : Shape := ⟨2, ![256, 32]⟩
abbrev S32 : Shape := ⟨1, ![32]⟩
abbrev S_ : Shape := ⟨0, ![]⟩

class Facts : Prop where
  bcast_S_S131072x640 : S_.BroadcastsInDim S131072x640 (![] : Fin 0 → Fin S131072x640.rank)
  reducesTo_S131072x640_S_d0_1 : S131072x640.ReducesTo [0, 1] S_
  h_S_ : 0 < S_.numel
  bcast_S_S640x256 : S_.BroadcastsInDim S640x256 (![] : Fin 0 → Fin S640x256.rank)
  reducesTo_S640x256_S_d0_1 : S640x256.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S131072x640 .f32) (main_arg1 : IVec S131072 32) (main_arg2 : FVec F S640x256 .f32) (main_arg3 : FVec F S256 .f32) (main_arg4 : FVec F S256x32 .f32) (main_arg5 : FVec F S32 .f32) : IVec S_ 1 :=
  let main_v0 : FVec F S131072x640 .f32 := Host.absf main_arg0
  let main_cst : FVec F S_ .f32 := constant S_ .f32 0x7F800000#32
  let main_v1 : FVec F S131072x640 .f32 := broadcastInDim S131072x640 ![] bcast_S_S131072x640 main_cst
  let main_v2 : IVec S131072x640 1 := cmpf .olt main_v0 main_v1
  let main_c : IVec S_ 1 := constantI S_ 1 1#1
  let main_v3 : IVec S_ 1 := (fun x v => Host.reduce IntOp.andi x v reducesTo_S131072x640_S_d0_1 h_S_) main_v2 main_c
  let main_v4 : FVec F S640x256 .f32 := Host.absf main_arg2
  let main_cst_0 : FVec F S_ .f32 := constant S_ .f32 0x7F800000#32
  let main_v5 : FVec F S640x256 .f32 := broadcastInDim S640x256 ![] bcast_S_S640x256 main_cst_0
  let main_v6 : IVec S640x256 1 := cmpf .olt main_v4 main_v5
  let main_c_1 : IVec S_ 1 := constantI S_ 1 1#1
  let main_v7 : IVec S_ 1 := (fun x v => Host.reduce IntOp.andi x v reducesTo_S640x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x32 .f32 := Host.absf main_arg4
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg5 main_v13 main_v16
-- ==== Kernel.lean ====
abbrev S131072x640 : Shape := ⟨2, ![131072, 640]⟩
abbrev S131072 : Shape := ⟨1, ![131072]⟩
abbrev S640x256 : Shape := ⟨2, ![640, 256]⟩
abbrev S256 : Shape := ⟨1, ![256]⟩
abbrev S256x32 : Shape := ⟨2, ![256, 32]⟩
abbrev S32 : Shape := ⟨1, ![32]⟩
abbrev S131072x1 : Shape := ⟨2, ![131072, 1]⟩
abbrev S2x32x640 : Shape := ⟨3, ![2, 32, 640]⟩
abbrev S_ : Shape := ⟨0, ![]⟩
abbrev S32x640 : Shape := ⟨2, ![32, 640]⟩
abbrev S32x1 : Shape := ⟨2, ![32, 1]⟩
abbrev S32x256 : Shape := ⟨2, ![32, 256]⟩
abbrev S1x256 : Shape := ⟨2, ![1, 256]⟩
abbrev S32x32 : Shape := ⟨2, ![32, 32]⟩
abbrev S1x32 : Shape := ⟨2, ![1, 32]⟩
abbrev S4096x640 : Shape := ⟨2, ![4096, 640]⟩
abbrev S4096x1 : Shape := ⟨2, ![4096, 1]⟩
abbrev S1x32x640 : Shape := ⟨3, ![1, 32, 640]⟩
abbrev S4096x32 : Shape := ⟨2, ![4096, 32]⟩

abbrev nBuf : Space → Nat
  | .hbm => 45
  | .vmem => 6
  | .smem => 0
  | _ => 0

abbrev bufTy : (tb : Table) → Fin (tcTables nBuf tb) → BufTy
  | .hbm, ⟨0, _⟩ => ⟨S131072x640, .f32⟩
  | .hbm, ⟨1, _⟩ => ⟨S131072, .i32⟩
  | .hbm, ⟨2, _⟩ => ⟨S640x256, .f32⟩
  | .hbm, ⟨3, _⟩ => ⟨S256, .f32⟩
  | .hbm, ⟨4, _⟩ => ⟨S256x32, .f32⟩
  | .hbm, ⟨5, _⟩ => ⟨S32, .f32⟩
  | .hbm, ⟨6, _⟩ => ⟨S131072x1, .i32⟩
  | .hbm, ⟨7, _⟩ => ⟨S2x32x640, .f32⟩
  | .hbm, ⟨8, _⟩ => ⟨S_, .f32⟩
  | .hbm, ⟨9, _⟩ => ⟨S32x640, .f32⟩
  | .hbm, ⟨10, _⟩ => ⟨S_, .f32⟩
  | .hbm, ⟨11, _⟩ => ⟨S131072, .f32⟩
  | .hbm, ⟨12, _⟩ => ⟨S_, .f32⟩
  | .hbm, ⟨13, _⟩ => ⟨S32, .f32⟩
  | .hbm, ⟨14, _⟩ => ⟨S131072x1, .i32⟩
  | .hbm, ⟨15, _⟩ => ⟨S32, .f32⟩
  | .hbm, ⟨16, _⟩ => ⟨S32x1, .f32⟩
  | .hbm, ⟨17, _⟩ => ⟨S32x640, .f32⟩
  | .hbm, ⟨18, _⟩ => ⟨S32x640, .f32⟩
  | .hbm, ⟨19, _⟩ => ⟨S32x256, .f32⟩
  | .hbm, ⟨20, _⟩ => ⟨S1x256, .f32⟩
  | .hbm, ⟨21, _⟩ => ⟨S32x256, .f32⟩
  | .hbm, ⟨22, _⟩ => ⟨S32x256, .f32⟩
  | .hbm, ⟨23, _⟩ => ⟨S_, .f32⟩
  | .hbm, ⟨24, _⟩ => ⟨S32x256, .f32⟩
  | .hbm, ⟨25, _⟩ => ⟨S32x256, .f32⟩
  | .hbm, ⟨26, _⟩ => ⟨S32x32, .f32⟩
  | .hbm, ⟨27, _⟩ => ⟨S1x32, .f32⟩
  | .hbm, ⟨28, _⟩ => ⟨S32x32, .f32⟩
  | .hbm, ⟨29, _⟩ => ⟨S32x32, .f32⟩
  | .hbm, ⟨30, _⟩ => ⟨S_, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S32x1, .f32⟩
  | .hbm, ⟨36, _⟩ => ⟨S32x32, .f32⟩
  | .hbm, ⟨37, _⟩ => ⟨S32x32, .f32⟩
  | .hbm, ⟨38, _⟩ => ⟨S32x32, .f32⟩
  | .hbm, ⟨39, _⟩ => ⟨S_, .f32⟩
  | .hbm, ⟨40, _⟩ => ⟨S32, .f32⟩
  | .hbm, ⟨41, _⟩ => ⟨S32x1, .f32⟩
  | .hbm, ⟨42, _⟩ => ⟨S32x32, .f32⟩
  | .hbm, ⟨43, _⟩ => ⟨S32x32, .f32⟩
  | .hbm, ⟨44, _⟩ => ⟨S32, .i32⟩
  | .local _ .vmem, ⟨0, _⟩ => ⟨S4096x640, .f32⟩
  | .local _ .vmem, ⟨1, _⟩ => ⟨S4096x640, .f32⟩
  | .local _ .vmem, ⟨2, _⟩ => ⟨S4096x1, .i32⟩
  | .local _ .vmem, ⟨3, _⟩ => ⟨S4096x1, .i32⟩
  | .local _ .vmem, ⟨4, _⟩ => ⟨S1x32x640, .f32⟩
  | .local _ .vmem, ⟨5, _⟩ => ⟨S1x32x640, .f32⟩
  | _, _ => ⟨S131072x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_cst_0 : Ref sig .tc := ⟨.hbm, 10, rfl⟩
abbrev main_call0_v3 : Ref sig .tc := ⟨.hbm, 11, rfl⟩
abbrev main_call0_cst_1 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst_2 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_cst_3 : Ref sig .tc := ⟨.hbm, 30, rfl⟩
abbrev main_call0_v20 : Ref sig .tc := ⟨.hbm, 31, rfl⟩
abbrev main_call0_cst_4 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_call0_v26 : Ref sig .tc := ⟨.hbm, 38, rfl⟩
abbrev main_call0_cst_5 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_v0_0 : Ref sig .tc := ⟨.hbm, 43, rfl⟩
abbrev main_v0_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S131072_S131072x1 : S131072.ShapeCasts S131072x1
  reducesTo_S2x32x640_S32x640_d0 : S2x32x640.ReducesTo [0] S32x640
  h_S_ : 0 < S_.numel
  bcast_S_S131072 : S_.BroadcastsInDim S131072 (![] : Fin 0 → Fin S131072.rank)
  bcast_S_S32 : S_.BroadcastsInDim S32 (![] : Fin 0 → Fin S32.rank)
  bcast_S131072_S131072x1_0 : S131072.BroadcastsInDim S131072x1 (![0] : Fin 1 → Fin S131072x1.rank)
  bcast_S32_S32x1_0 : S32.BroadcastsInDim S32x1 (![0] : Fin 1 → Fin S32x1.rank)
  bcast_S32x1_S32x640_0_1 : S32x1.BroadcastsInDim S32x640 (![0, 1] : Fin 2 → Fin S32x640.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  reducesTo_S32x32_S32_d1 : S32x32.ReducesTo [1] S32
  bcast_S32x1_S32x32_0_1 : S32x1.BroadcastsInDim S32x32 (![0, 1] : Fin 2 → Fin S32x32.rank)
  inb_S1x32x640_S1x32x640_0_0_0 : ∀ a, (![0, 0, 0] : Fin 3 → Nat) a + S1x32x640.size a ≤ S1x32x640.size a
  h_S1x32x640 : 0 < S1x32x640.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x32_d1_w32 : S4096x32.Iotas .tc 32 [1]
  broadcasts_S4096x1_S4096x32 : S4096x1.Broadcasts S4096x32
  natLt_1_32 : 1 < 32
  bitsLt_bf16_f32 : FTy.bits .bf16 < FTy.bits .f32
  inb_S4096x640_S4096x640_0_0 : ∀ a, (![0, 0] : Fin 2 → Nat) a + S4096x640.size a ≤ S4096x640.size a
  h_S4096x640 : 0 < S4096x640.numel
  shapeCasts_S1x32x640_S1x32x640 : S1x32x640.ShapeCasts S1x32x640
  shapeCasts_S32x640_S1x32x640 : S32x640.ShapeCasts S1x32x640
  scatter_S32_S131072x1_S131072_n_0_0_1_wf : ScatterDims.WF S32 S131072x1 S131072 [] [0] [0] 1
  dot_S32x640_S640x256_S32x256_1_0_0_1_n_n_wf : DotDims.WF S32x640 S640x256 S32x256 [1] [0] [0] [1] [] []
  dot_S32x256_S256x32_S32x32_1_0_0_1_n_n_wf : DotDims.WF S32x256 S256x32 S32x32 [1] [0] [0] [1] [] []
  dot_S4096x32_S4096x640_S32x640_0_0_1_1_n_n_wf : DotDims.WF S4096x32 S4096x640 S32x640 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x640.size a ≤ S131072x640.size a
  hwx0_0 : ∀ i : grid0.Coords, EltTy.bits .f32 = 32 ∨ (Rect.block (s := S131072x640) S4096x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .i32 = 32 ∨ (Rect.block (s := S131072x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x640.size a ≤ S2x32x640.size a
  hwx0_2 : ∀ i : grid0.Coords, EltTy.bits .f32 = 32 ∨ (Rect.block (s := S2x32x640) S1x32x640.size (cc0_transform_2 i) (hinb0_2 i)).WholeWords (EltTy.packing .f32)

variable [Facts₀]

def scatter_S32_S131072x1_S131072_n_0_0_1 : ScatterDims S32 S131072x1 S131072 where
  updateWindowDims := []
  insertedWindowDims := [0]
  scatterDimsToOperandDims := [0]
  indexVectorDim := 1
  wf := scatter_S32_S131072x1_S131072_n_0_0_1_wf
def dot_S32x640_S640x256_S32x256_1_0_0_1_n_n : DotDims S32x640 S640x256 S32x256 where
  lhsContracting := [1]
  rhsContracting := [0]
  lhsNonContracting := [0]
  rhsNonContracting := [1]
  lhsBatch := []
  rhsBatch := []
  wf := dot_S32x640_S640x256_S32x256_1_0_0_1_n_n_wf
def dot_S32x256_S256x32_S32x32_1_0_0_1_n_n : DotDims S32x256 S256x32 S32x32 where
  lhsContracting := [1]
  rhsContracting := [0]
  lhsNonContracting := [0]
  rhsNonContracting := [1]
  lhsBatch := []
  rhsBatch := []
  wf := dot_S32x256_S256x32_S32x32_1_0_0_1_n_n_wf
def dot_S4096x32_S4096x640_S32x640_0_0_1_1_n_n : DotDims S4096x32 S4096x640 S32x640 where
  lhsContracting := [0]
  rhsContracting := [0]
  lhsNonContracting := [1]
  rhsNonContracting := [1]
  lhsBatch := []
  rhsBatch := []
  wf := dot_S4096x32_S4096x640_S32x640_0_0_1_1_n_n_wf

abbrev win0_0 : Pipeline.Window sig grid0 :=
  Pipeline.Window.ofSpec (Memref.whole main_arg0) S4096x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x32x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x640 : Shape := ⟨2, ![131072, 640]⟩
abbrev S131072 : Shape := ⟨1, ![131072]⟩
abbrev S640x256 : Shape := ⟨2, ![640, 256]⟩
abbrev S256 : Shape := ⟨1, ![256]⟩
abbrev S256x32 : Shape := ⟨2, ![256, 32]⟩
abbrev S32 : Shape := ⟨1, ![32]⟩
abbrev S_ : Shape := ⟨0, ![]⟩
abbrev S32x640 : Shape := ⟨2, ![32, 640]⟩
abbrev S131072x1 : Shape := ⟨2, ![131072, 1]⟩
abbrev S32x1 : Shape := ⟨2, ![32, 1]⟩
abbrev S32x256 : Shape := ⟨2, ![32, 256]⟩
abbrev S1x256 : Shape := ⟨2, ![1, 256]⟩
abbrev S32x32 : Shape := ⟨2, ![32, 32]⟩
abbrev S1x32 : Shape := ⟨2, ![1, 32]⟩

abbrev nBuf : Space → Nat
  | .hbm => 45
  | .vmem => 0
  | .smem => 0
  | _ => 0

abbrev bufTy : (tb : Table) → Fin (tcTables nBuf tb) → BufTy
  | .hbm, ⟨0, _⟩ => ⟨S131072x640, .f32⟩
  | .hbm, ⟨1, _⟩ => ⟨S131072, .i32⟩
  | .hbm, ⟨2, _⟩ => ⟨S640x256, .f32⟩
  | .hbm, ⟨3, _⟩ => ⟨S256, .f32⟩
  | .hbm, ⟨4, _⟩ => ⟨S256x32, .f32⟩
  | .hbm, ⟨5, _⟩ => ⟨S32, .f32⟩
  | .hbm, ⟨6, _⟩ => ⟨S_, .f32⟩
  | .hbm, ⟨7, _⟩ => ⟨S32x640, .f32⟩
  | .hbm, ⟨8, _⟩ => ⟨S131072x1, .i32⟩
  | .hbm, ⟨9, _⟩ => ⟨S32x640, .f32⟩
  | .hbm, ⟨10, _⟩ => ⟨S_, .f32⟩
  | .hbm, ⟨11, _⟩ => ⟨S131072, .f32⟩
  | .hbm, ⟨12, _⟩ => ⟨S_, .f32⟩
  | .hbm, ⟨13, _⟩ => ⟨S32, .f32⟩
  | .hbm, ⟨14, _⟩ => ⟨S131072x1, .i32⟩
  | .hbm, ⟨15, _⟩ => ⟨S32, .f32⟩
  | .hbm, ⟨16, _⟩ => ⟨S32x1, .f32⟩
  | .hbm, ⟨17, _⟩ => ⟨S32x640, .f32⟩
  | .hbm, ⟨18, _⟩ => ⟨S32x640, .f32⟩
  | .hbm, ⟨19, _⟩ => ⟨S32x256, .f32⟩
  | .hbm, ⟨20, _⟩ => ⟨S1x256, .f32⟩
  | .hbm, ⟨21, _⟩ => ⟨S32x256, .f32⟩
  | .hbm, ⟨22, _⟩ => ⟨S32x256, .f32⟩
  | .hbm, ⟨23, _⟩ => ⟨S_, .f32⟩
  | .hbm, ⟨24, _⟩ => ⟨S32x256, .f32⟩
  | .hbm, ⟨25, _⟩ => ⟨S32x256, .f32⟩
  | .hbm, ⟨26, _⟩ => ⟨S32x32, .f32⟩
  | .hbm, ⟨27, _⟩ => ⟨S1x32, .f32⟩
  | .hbm, ⟨28, _⟩ => ⟨S32x32, .f32⟩
  | .hbm, ⟨29, _⟩ => ⟨S32x32, .f32⟩
  | .hbm, ⟨30, _⟩ => ⟨S_, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S32x1, .f32⟩
  | .hbm, ⟨36, _⟩ => ⟨S32x32, .f32⟩
  | .hbm, ⟨37, _⟩ => ⟨S32x32, .f32⟩
  | .hbm, ⟨38, _⟩ => ⟨S32x32, .f32⟩
  | .hbm, ⟨39, _⟩ => ⟨S_, .f32⟩
  | .hbm, ⟨40, _⟩ => ⟨S32, .f32⟩
  | .hbm, ⟨41, _⟩ => ⟨S32x1, .f32⟩
  | .hbm, ⟨42, _⟩ => ⟨S32x32, .f32⟩
  | .hbm, ⟨43, _⟩ => ⟨S32x32, .f32⟩
  | .hbm, ⟨44, _⟩ => ⟨S32, .i32⟩
  | _, _ => ⟨S131072x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  bcast_S_S32x640 : S_.BroadcastsInDim S32x640 (![] : Fin 0 → Fin S32x640.rank)
  bcast_S131072_S131072x1_0 : S131072.BroadcastsInDim S131072x1 (![0] : Fin 1 → Fin S131072x1.rank)
  bcast_S_S131072 : S_.BroadcastsInDim S131072 (![] : Fin 0 → Fin S131072.rank)
  bcast_S_S32 : S_.BroadcastsInDim S32 (![] : Fin 0 → Fin S32.rank)
  bcast_S32_S32x1_0 : S32.BroadcastsInDim S32x1 (![0] : Fin 1 → Fin S32x1.rank)
  bcast_S32x1_S32x640_0_1 : S32x1.BroadcastsInDim S32x640 (![0, 1] : Fin 2 → Fin S32x640.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  reducesTo_S32x32_S32_d1 : S32x32.ReducesTo [1] S32
  h_S_ : 0 < S_.numel
  bcast_S32x1_S32x32_0_1 : S32x1.BroadcastsInDim S32x32 (![0, 1] : Fin 2 → Fin S32x32.rank)
  scatter_S32x640_S131072x1_S131072x640_1_0_0_1_wf : ScatterDims.WF S32x640 S131072x1 S131072x640 [1] [0] [0] 1
  scatter_S32_S131072x1_S131072_n_0_0_1_wf : ScatterDims.WF S32 S131072x1 S131072 [] [0] [0] 1
  dot_S32x640_S640x256_S32x256_1_0_0_1_n_n_wf : DotDims.WF S32x640 S640x256 S32x256 [1] [0] [0] [1] [] []
  dot_S32x256_S256x32_S32x32_1_0_0_1_n_n_wf : DotDims.WF S32x256 S256x32 S32x32 [1] [0] [0] [1] [] []

variable [Facts₀]

def scatter_S32x640_S131072x1_S131072x640_1_0_0_1 : ScatterDims S32x640 S131072x1 S131072x640 where
  updateWindowDims := [1]
  insertedWindowDims := [0]
  scatterDimsToOperandDims := [0]
  indexVectorDim := 1
  wf := scatter_S32x640_S131072x1_S131072x640_1_0_0_1_wf
def scatter_S32_S131072x1_S131072_n_0_0_1 : ScatterDims S32 S131072x1 S131072 where
  updateWindowDims := []
  insertedWindowDims := [0]
  scatterDimsToOperandDims := [0]
  indexVectorDim := 1
  wf := scatter_S32_S131072x1_S131072_n_0_0_1_wf
def dot_S32x640_S640x256_S32x256_1_0_0_1_n_n : DotDims S32x640 S640x256 S32x256 where
  lhsContracting := [1]
  rhsContracting := [0]
  lhsNonContracting := [0]
  rhsNonContracting := [1]
  lhsBatch := []
  rhsBatch := []
  wf := dot_S32x640_S640x256_S32x256_1_0_0_1_n_n_wf
def dot_S32x256_S256x32_S32x32_1_0_0_1_n_n : DotDims S32x256 S256x32 S32x32 where
  lhsContracting := [1]
  rhsContracting := [0]
  lhsNonContracting := [0]
  rhsNonContracting := [1]
  lhsBatch := []
  rhsBatch := []
  wf := dot_S32x256_S256x32_S32x32_1_0_0_1_n_n_wf

class Facts : Prop extends Facts₀ where

variable [Facts]
-- ==== Proof.KernelPieces.lean ====
/-
  What one step of the kernel leaves in the output block, as a value.

  At a grid point the body loads the label block and the table block, forms the block's one-hot product and adds it
  to what the output block holds. At the first point of each half (the condition holds) it first stores the zero block,
  so the sum starts from zero; elsewhere it starts from what the point before left. Both cases end in ONE store that
  covers the whole block, whose payload is the body's arithmetic `k0_pay2` of the three loaded blocks; this module
  reads the blocks back through the whole-buffer loads, at any float instance.
-/
import proofs.«403394_j37160057045590_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Away from a reset: the block holding `xo` ends at the body's arithmetic of the label block, the table block and `xo`. -/
theorem out_B (c : Dev nD) (i : grid0.Coords) (a2 : Memref sig .tc .vmem S4096x640 .f32) (h2 : a2.IsWhole)
    (a3 : Memref sig .tc .vmem S4096x1 .i32) (h3 : a3.IsWhole) (a4 : Memref sig .tc .vmem S1x32x640 .f32) (h4 : a4.IsWhole)
    (hc : ¬cond0_0 i) (x0 : Vec F S4096x640 .f32) (x1 : Vec F S4096x1 .i32) (xo : Vec F S1x32x640 .f32) :
    out0_B_2 c i a2 h2 a3 h3 a4 h4 hc x0 x1 xo = k0_pay2 x1 x0 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S4096x640) hz2,
    View.ld_unit_zero (S := S4096x1) hz2, View.ld_unit_zero (S := S1x32x640) hz3]

/-- At a reset: the zero block is stored first and read back, so the block ends at the body's arithmetic of the label
    block, the table block and the zero block. -/
theorem out_A (c : Dev nD) (i : grid0.Coords) (a2 : Memref sig .tc .vmem S4096x640 .f32) (h2 : a2.IsWhole)
    (a3 : Memref sig .tc .vmem S4096x1 .i32) (h3 : a3.IsWhole) (a4 : Memref sig .tc .vmem S1x32x640 .f32) (h4 : a4.IsWhole)
    (hc : cond0_0 i) (x0 : Vec F S4096x640 .f32) (x1 : Vec F S4096x1 .i32) :
    out0_A_2 c i a2 h2 a3 h3 a4 h4 hc x0 x1 = k0_pay2 x1 x0 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x32x640) hz3, View.readCov_unit_zero (S := S1x32x640) _ hz3]
  simp only [View.readAt_eq_ld, h2.read_unread, h3.read_unread, View.ld_unit_zero (S := S4096x640) hz2,
    View.ld_unit_zero (S := S4096x1) hz2]

end Cert.KernelIdeal.Pieces

end
-- ==== Proof.SegSum.lean ====
/-
  Segment sums, as plain mathematics over the extended reals.

  A table `x` of 131072 rows by 640 columns and a label word per row. The sum of segment `s` in column `d` is the sum
  over ALL rows of the row's weight in segment `s` (one when the row's label is the word `s`, zero otherwise) times the
  row's entry in column `d`. A row whose label is no segment number weighs zero in every segment.

  Two ways of computing it meet here.
  * Row blocks: the rows are cut into 32 consecutive blocks of 4096; a running sum is reset at the blocks 0 and 16 and
    otherwise continued, so that after block `n` it holds the rows from the last reset up to the end of block `n`; the
    two running sums after the blocks 15 and 31 add up to the sum over all rows.
  * Selection: the sum over the table entries `(r, d')` selected by "row `r` is labelled `s` and `d' = d`".
-/
import Idealize.ShloMosaic.Lib.ValueIdx
import Idealize.ShloMosaic.PureOps.Ideal.Laws
import Mathlib.Algebra.BigOperators.Intervals
import Mathlib.Algebra.BigOperators.Fin
import Mathlib.Tactic.Ring

noncomputable section

open scoped BigOperators

namespace Cert.SegSum

open Idealize.ShloMosaic Idealize.ShloMosaic.ValueIdx

/-- The table's shape, the labels' shape and the shape of the segment sums. -/
abbrev XS : Shape := ⟨2, ![131072, 640]⟩
abbrev LS : Shape := ⟨1, ![131072]⟩
abbrev OS : Shape := ⟨2, ![32, 640]⟩

/-- The weight of a row labelled `l` in segment `s`: one when the label is the word `s`, zero otherwise. -/
def oneHot (l : BitVec 32) (s : ℕ) : EReal := if l = BitVec.ofNat 32 s then 1 else 0

/-- The weight as a program spells it: the one-bit comparison of the label with the word `s`, widened to 32 bits with
    zeros and read as a signed integer. -/
theorem oneHot_word (l : BitVec 32) (s : ℕ) :
    ((((IntOp.cmpi .eq l (BitVec.ofNat 32 s)).setWidth 32).toInt : ℝ) : EReal) = oneHot l s := by
  unfold oneHot IntOp.cmpi
  by_cases h : l = BitVec.ofNat 32 s
  · rw [if_pos h]
    have : (l == BitVec.ofNat 32 s) = true := by simpa using h
    simp only [this]
    norm_num
    all_goals decide
  · rw [if_neg h]
    have : (l == BitVec.ofNat 32 s) = false := by simpa using h
    simp only [this]
    norm_num
    all_goals decide

/-- A weight times an entry: the entry where the label matches, zero elsewhere (on every extended real). -/
theorem oneHot_mul (l : BitVec 32) (s : ℕ) (v : EReal) : oneHot l s * v = if l = BitVec.ofNat 32 s then v else 0 := by
  unfold oneHot
  split <;> simp

/-- Row `row`'s contribution to segment `s`, column `d` (zero past the table's last row). -/
def rowTerm (x : XS.Idx → EReal) (lab : LS.Idx → BitVec 32) (s : Fin 32) (d : Fin 640) (row : ℕ) : EReal :=
  if h : row < 131072 then oneHot (lab (ix1 ⟨row, h⟩)) s.val * x (ix2 ⟨row, h⟩ d) else 0

/-- The segment sums: over all rows, the row's weight times its entry. -/
def segSum (x : XS.Idx → EReal) (lab : LS.Idx → BitVec 32) : OS.Idx → EReal :=
  fun i => ∑ row ∈ Finset.range 131072, rowTerm x lab (i 0) (i 1) row

/-! ## Row blocks -/

/-- A sum over the 4096 rows of block `t` is the sum over the rows `4096 t ≤ row < 4096 (t + 1)`. -/
theorem sum_block (f : ℕ → EReal) (t : ℕ) :
    ∑ r : Fin 4096, f (4096 * t + r.val) = ∑ row ∈ Finset.Ico (4096 * t) (4096 * (t + 1)), f row := by
  rw [Finset.sum_Ico_eq_sum_range, show 4096 * (t + 1) - 4096 * t = 4096 by omega]
  exact (Finset.sum_range fun r => f (4096 * t + r)).symm

/-- The running sum after block `n`: the rows from the last reset (the start of block `16 (n / 16)`) to the end of
    block `n`. -/
def accSum (f : ℕ → EReal) (n : ℕ) : EReal := ∑ row ∈ Finset.Ico (65536 * (n / 16)) (4096 * (n + 1)), f row

/-- At a reset the running sum is the block's own sum. -/
theorem accSum_reset (f : ℕ → EReal) (n : ℕ) (h : n % 16 = 0) :
    accSum f n = ∑ row ∈ Finset.Ico (4096 * n) (4096 * (n + 1)), f row := by
  unfold accSum
  rw [show 65536 * (n / 16) = 4096 * n by omega]

/-- Elsewhere it is the running sum after the block before plus the block's own sum. -/
theorem accSum_step (f : ℕ → EReal) (n : ℕ) (h : ¬n % 16 = 0) :
    accSum f (n - 1) + ∑ row ∈ Finset.Ico (4096 * n) (4096 * (n + 1)), f row = accSum f n := by
  unfold accSum
  rw [show 65536 * ((n - 1) / 16) = 65536 * (n / 16) by omega, show 4096 * (n - 1 + 1) = 4096 * n by omega]
  exact Finset.sum_Ico_consecutive f (by omega) (by omega)

/-- The running sums after the blocks 15 and 31 add up to the sum over all rows. -/
theorem accSum_total (f : ℕ → EReal) : accSum f 15 + accSum f 31 = ∑ row ∈ Finset.range 131072, f row := by
  unfold accSum
  rw [Finset.range_eq_Ico]
  exact Finset.sum_Ico_consecutive f (by omega) (by omega)

/-! ## Selection -/

/-- The sum over the table entries selected by "the row is labelled `s` and the column is `d`" is the segment sum. -/
theorem sum_filter_eq_segSum (x : XS.Idx → EReal) (lab : LS.Idx → BitVec 32) (s : Fin 32) (d : Fin 640) (P : XS.Idx → Prop)
    [DecidablePred P] (hP : ∀ j : XS.Idx, P j ↔ (lab (ix1 (j 0)) = BitVec.ofNat 32 s.val ∧ (j 1 : Fin 640) = d)) :
    ∑ j ∈ Finset.univ.filter P, x j = segSum x lab (ix2 s d) := by
  unfold segSum
  rw [Finset.sum_filter, sum_idx2, Finset.sum_range]
  refine Finset.sum_congr rfl fun r _ => ?_
  show _ = rowTerm x lab s d r.val
  unfold rowTerm
  rw [dif_pos r.isLt, oneHot_mul]
  by_cases hl : lab (ix1 r) = BitVec.ofNat 32 s.val
  · rw [if_pos hl]
    have : ∀ d' : Fin 640, (if P (ix2 r d') then x (ix2 r d') else 0) = if d' = d then x (ix2 r d') else 0 := fun d' => by
      have := hP (ix2 r d')
      by_cases hd : d' = d
      · rw [if_pos hd, if_pos (this.mpr ⟨hl, hd⟩)]
      · rw [if_neg hd, if_neg fun hp => hd (this.mp hp).2]
    simp only [this]
    rw [Finset.sum_ite_eq' Finset.univ d fun d' => x (ix2 r d')]
    simp
  · rw [if_neg hl]
    exact Finset.sum_eq_zero fun d' _ => if_neg fun hp => hl ((hP (ix2 r d')).mp hp).1

end Cert.SegSum

end
-- ==== Proof.KernelSteps.lean ====
/-
  One step of the kernel over the extended reals, read at an entry.

  The body's arithmetic at entry `(s, d)` of the output block: what the block held there, plus the sum over the 4096
  rows of the point's blocks of the row's weight in segment `s` (its label compared with the lane number `s`, the one
  bit widened and converted: `SegSum.oneHot`) times the row's table entry in column `d`. The product of the one-hot
  block with the table block contracts the ROW axis of both; the format changes on the way are identities.
-/
import proofs.«403394_j37160057045590_3_alg».proof.Proof.KernelPieces
import proofs.«403394_j37160057045590_3_alg».proof.Proof.SegSum
import Idealize.ShloMosaic.Lib.ValueIdx
import Idealize.ShloMosaic.PureOps.Ideal.Laws

noncomputable section

open scoped BigOperators
open Idealize.ShloMosaic Idealize.ShloMosaic.ValueIdx Idealize.ShloMosaic.TcCoe Idealize.SL.Sem

namespace Cert.KernelIdeal.Steps

open Cert.KernelIdeal Cert.KernelIdeal.Gen Cert.SegSum

/-- The product's dimension numbers: both operands contract their row axis. -/
abbrev DK := dot_S4096x32_S4096x640_S32x640_0_0_1_1_n_n

/-- The one-hot block of a label block, as the body builds it. -/
def ohVec (x1 : IVec S4096x1 32) : FVec Ideal S4096x32 .bf16 :=
  truncf .bf16 (sitofp .f32 (extui 32 (cmpi .eq
    (broadcastTo S4096x32 (shapeCast S4096x1 x1 shapeCasts_S4096x1_S4096x1) broadcasts_S4096x1_S4096x32)
    (iota .tc S4096x32 32 [1] iota_S4096x32_d1_w32)) natLt_1_32)) bitsLt_bf16_f32

/-- Its entry `(r, s)` is row `r`'s weight in segment `s`. -/
theorem ohVec_apply (x1 : IVec S4096x1 32) (r : Fin 4096) (s : Fin 32) : ohVec x1 (ix2 r s) = oneHot (x1 (ix2 r 0)) s.val := by
  have hb : broadcastTo S4096x32 (shapeCast S4096x1 x1 shapeCasts_S4096x1_S4096x1) broadcasts_S4096x1_S4096x32 (ix2 r s)
      = x1 (ix2 r 0) := by
    rw [shapeCast_self]
    exact broadcastTo_apply x1 broadcasts_S4096x1_S4096x32 (ix2 r s) (ix2 r 0) (fun a => by
      match a with
      | ⟨0, _⟩ => show r.val = if (4096 : Nat) = 1 then 0 else r.val; rw [if_neg (by decide)]
      | ⟨1, _⟩ => show 0 = if (1 : Nat) = 1 then 0 else _; rw [if_pos rfl])
  have hi : iota .tc S4096x32 32 [1] iota_S4096x32_d1_w32 (ix2 r s) = BitVec.ofNat 32 s.val := by
    show BitVec.ofNat 32 (0 * 32 + s.val) = _
    rw [Nat.zero_mul, Nat.zero_add]
  show ((((IntOp.cmpi .eq (broadcastTo S4096x32 (shapeCast S4096x1 x1 shapeCasts_S4096x1_S4096x1) broadcasts_S4096x1_S4096x32 (ix2 r s))
    (iota .tc S4096x32 32 [1] iota_S4096x32_d1_w32 (ix2 r s))).setWidth 32).toInt : ℝ) : EReal) = _
  rw [hb, hi]
  exact oneHot_word _ _

/-! ## The product's operand indices -/

theorem lhs_DK_0 (i : S32x640.Idx) (q : DK.contr.Idx) : (DK.lhsIdx i q 0).val = (q ⟨0, by decide⟩).val :=
  DK.lhsIdx_val_of_single rfl i q
theorem lhs_DK_1 (i : S32x640.Idx) (q : DK.contr.Idx) : (DK.lhsIdx i q 1).val = (i 0).val := by
  unfold DotDims.lhsIdx
  rw [dif_neg (show ¬(1 : Fin S4096x32.rank) ∈ DK.lhsBatch by decide), dif_pos (show (1 : Fin S4096x32.rank) ∈ DK.lhsNonContracting by decide)]
  rfl
theorem rhs_DK_0 (i : S32x640.Idx) (q : DK.contr.Idx) : (DK.rhsIdx i q 0).val = (q ⟨0, by decide⟩).val :=
  DK.rhsIdx_val_of_single rfl i q
theorem rhs_DK_1 (i : S32x640.Idx) (q : DK.contr.Idx) : (DK.rhsIdx i q 1).val = (i 1).val := by
  unfold DotDims.rhsIdx
  rw [dif_neg (show ¬(1 : Fin S4096x640.rank) ∈ DK.rhsBatch by decide), dif_pos (show (1 : Fin S4096x640.rank) ∈ DK.rhsNonContracting by decide)]
  rfl

/-- The product into a zero accumulator at `(s, d)`: the sum over the rows of weight times entry. -/
theorem matmul_apply (x1 : IVec S4096x1 32) (x0 : FVec Ideal S4096x640 .f32) (s : Fin 32) (d : Fin 640) :
    matmul DK none (ohVec x1) (truncf .bf16 x0 bitsLt_bf16_f32 : FVec Ideal S4096x640 .bf16) (constant S32x640 .f32 0x00000000#32) (ix2 s d)
      = ∑ r : Fin 4096, oneHot (x1 (ix2 r 0)) s.val * x0 (ix2 r d) := by
  simp only [matmul]
  rw [Ideal.matmul_constant_zero_apply, ← Equiv.sum_comp (contrEquiv1 DK 4096 rfl rfl).symm]
  refine Finset.sum_congr rfl fun k _ => ?_
  have hk := contrEquiv1_symm_val DK 4096 rfl rfl k
  have el : DK.lhsIdx (ix2 s d) ((contrEquiv1 DK 4096 rfl rfl).symm k) = ix2 k s := funext fun a => Fin.ext (by
    match a with
    | ⟨0, _⟩ => exact (lhs_DK_0 _ _).trans hk
    | ⟨1, _⟩ => exact lhs_DK_1 _ _)
  have er : DK.rhsIdx (ix2 s d) ((contrEquiv1 DK 4096 rfl rfl).symm k) = ix2 k d := funext fun a => Fin.ext (by
    match a with
    | ⟨0, _⟩ => exact (rhs_DK_0 _ _).trans hk
    | ⟨1, _⟩ => exact rhs_DK_1 _ _)
  rw [el, er, ohVec_apply]
  rfl

/-- THE STEP at an entry: what the block held, plus the block's weighted row sum. -/
theorem pay2_apply (x1 : Vec Ideal S4096x1 .i32) (x0 : Vec Ideal S4096x640 .f32) (xo : Vec Ideal S1x32x640 .f32)
    (z : Fin 1) (s : Fin 32) (d : Fin 640) :
    k0_pay2 x1 x0 xo (ix3 z s d) = xo (ix3 z s d) + ∑ r : Fin 4096, oneHot (x1 (ix2 r 0)) s.val * x0 (ix2 r d) := by
  have e : k0_pay2 (F := Ideal) x1 x0 xo
      = addf (shapeCast S1x32x640 xo shapeCasts_S1x32x640_S1x32x640)
          (shapeCast S1x32x640 (matmul DK none (ohVec x1) (truncf .bf16 x0 bitsLt_bf16_f32 : FVec Ideal S4096x640 .bf16)
            (constant S32x640 .f32 0x00000000#32)) shapeCasts_S32x640_S1x32x640) := rfl
  rw [e, addf_apply, shapeCast_self]
  refine congrArg (xo (ix3 z s d) + ·) ?_
  refine (shapeCast_addUnit_apply ![32, 640] _ shapeCasts_S32x640_S1x32x640 (ix3 z s d)).trans ?_
  have hi : (fun a : Fin 2 => (ix3 z s d : S1x32x640.Idx) a.succ) = ix2 s d := funext fun a => by
    match a with
    | ⟨0, _⟩ => rfl
    | ⟨1, _⟩ => rfl
  rw [hi]
  exact matmul_apply x1 x0 s d

/-- The zero block the reset stores is zero at every entry. -/
theorem pay1_apply (j : S1x32x640.Idx) : k0_pay1 (F := Ideal) j = 0 := Ideal.ofBits_zero_f32

end Cert.KernelIdeal.Steps

end
-- ==== Proof.KernelValue.lean ====
/-
  The kernel's partial sums.

  The grid has 32 points; point `t` reads rows `4096 t ≤ row < 4096 (t + 1)` of the table and of the labels, and writes
  output block `t / 16`, which is written back after the points 15 and 31 only. By induction on the point, the output
  block after point `n` holds at `(s, d)` the running sum of SegSum.lean: the weighted rows from the last reset (the
  start of block `16 (n / 16)`) to the end of block `n`. So the result array holds, in its half `p`, the running sum
  after point `16 p + 15`.
-/
import proofs.«403394_j37160057045590_3_alg».proof.Proof.KernelSteps
import Idealize.ShloMosaic.Lib.StableHlo.Run

noncomputable section

open scoped BigOperators
open Idealize.ShloMosaic Idealize.ShloMosaic.ValueIdx Idealize.ShloMosaic.TcCoe Idealize.SL.Sem
open Idealize.ShloMosaic.Pipeline (Dat)

namespace Cert.KernelIdeal.KValue

open Cert.KernelIdeal Cert.KernelIdeal.Gen Cert.KernelIdeal.Pieces Cert.KernelIdeal.Steps Cert.SegSum

variable (m : (ℓ : Loc nD τ sig) → Buf (Elt Ideal) ℓ) (ρ : Dev nD → PrngReg)

/-- The table and the labels, as launched. -/
abbrev xarr (c : Dev nD) : FVec Ideal S131072x640 .f32 := m ((c.tc : Thread nD τ).loc main_arg0)
abbrev labs (c : Dev nD) : IVec S131072 32 := m ((c.tc : Thread nD τ).loc main_arg1)

/-- The printed index maps over the grid: the two inputs' block index is the point's number, the output's its half. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 16 ∧ win0_2.index t (1 : Fin 3) = 0 ∧ win0_2.index t (2 : Fin 3) = 0 :=
  (by decide +kernel : ∀ t : Fin grid0.N, _)

theorem lt_N (t : Fin cfg0.N) : t.val < 32 := lt_of_lt_of_eq t.isLt (show cfg0.N = 32 from N_0)

/-- A row of point `t`'s block is a row of the table. -/
theorem row_lt (t : Fin cfg0.N) (r : Fin 4096) : 4096 * t.val + r.val < 131072 := by
  have := lt_N t; have := r.isLt; omega

/-- The table block at point `t` reads the table at the rows `4096 t + r`. -/
theorem xblk_apply (c : Dev nD) (t : Fin cfg0.N) (r : Fin 4096) (d : Fin 640) :
    (iblk m c 0 t : Vec Ideal S4096x640 .f32) (ix2 r d) = xarr m c (ix2 ⟨4096 * t.val + r.val, row_lt t r⟩ d) := by
  obtain ⟨e0, e1, -⟩ := idx_facts t
  unfold iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_0.index t (0 : Fin 2) * 4096 + 1 * r.val = 4096 * t.val + r.val; rw [e0]; omega
  | ⟨1, _⟩ => show win0_0.index t (1 : Fin 2) * 640 + 1 * d.val = d.val; rw [e1]; omega

/-- The labels' column as the region finds it: the labels re-laid as one column. -/
theorem lcol_eq (c : Dev nD) : (V m c main_call0_v0 : IVec S131072x1 32) = shapeCast S131072x1 (labs m c) shapeCasts_S131072_S131072x1 := by
  show StableHlo.after hostOps0 (fun b => m (c, b)) (Proc.devRef .tc main_call0_v0) = _
  after_results
  rfl

/-- One column re-laid: entry `(row, 0)` of the column is entry `row` of the vector. -/
theorem reshape_col {α : Type} (x : S131072.Idx → α) (row : Fin 131072) :
    shapeCast S131072x1 x shapeCasts_S131072_S131072x1 (ix2 row 0) = x (ix1 row) := by
  refine shapeCast_apply x shapeCasts_S131072_S131072x1 (ix2 row 0) (ix1 row) ?_
  rw [Shape.rowMajor_val_one, Shape.rowMajor_val_two]
  show row.val = row.val * 1 + 0
  omega

/-- The label block at point `t` reads the labels at the rows `4096 t + r`. -/
theorem lblk_apply (c : Dev nD) (t : Fin cfg0.N) (r : Fin 4096) :
    (iblk m c 1 t : Vec Ideal S4096x1 .i32) (ix2 r 0) = labs m c (ix1 ⟨4096 * t.val + r.val, row_lt t r⟩) := by
  obtain ⟨-, -, e2, e3, -⟩ := idx_facts t
  unfold iblk
  rw [View.read_apply]
  show (V m c main_call0_v0 : IVec S131072x1 32) _ = _
  rw [lcol_eq]
  refine (congrArg (shapeCast S131072x1 (labs m c) shapeCasts_S131072_S131072x1) ?_).trans
    (reshape_col (labs m c) ⟨4096 * t.val + r.val, row_lt t r⟩)
  funext a
  apply Fin.ext
  match a with
  | ⟨0, _⟩ => show win0_1.index t (0 : Fin 2) * 4096 + 1 * r.val = 4096 * t.val + r.val; rw [e2]; omega
  | ⟨1, _⟩ => show win0_1.index t (1 : Fin 2) * 1 + 1 * 0 = 0; rw [e3]

/-- The rows' contributions to segment `s`, column `d`, of the table and labels as launched. -/
abbrev term (c : Dev nD) (s : Fin 32) (d : Fin 640) : ℕ → EReal := rowTerm (xarr m c) (labs m c) s d

/-- The weighted row sum of point `t`'s blocks is the sum of the contributions of the rows `4096 t ≤ row < 4096 (t + 1)`. -/
theorem blockSum_eq (c : Dev nD) (t : Fin cfg0.N) (s : Fin 32) (d : Fin 640) :
    ∑ r : Fin 4096, oneHot ((iblk m c 1 t : Vec Ideal S4096x1 .i32) (ix2 r 0)) s.val * (iblk m c 0 t : Vec Ideal S4096x640 .f32) (ix2 r d)
      = ∑ row ∈ Finset.Ico (4096 * t.val) (4096 * (t.val + 1)), term m c s d row := by
  rw [← sum_block]
  refine Finset.sum_congr rfl fun r _ => ?_
  rw [xblk_apply, lblk_apply]
  show _ = rowTerm (xarr m c) (labs m c) s d (4096 * t.val + r.val)
  unfold rowTerm
  rw [dif_pos (row_lt t r)]

/-- THE RUNNING SUM: after point `n` the output block holds, at `(s, d)`, the contributions of the rows from the last
    reset to the end of block `n`. By induction on the point: a reset point starts from the zero block, any other point
    adds its block's sum to what the point before left. -/
theorem outsAt_eq (c : Dev nD) (z : Fin 1) (s : Fin 32) (d : Fin 640) : ∀ (n : ℕ) (h : n < cfg0.N),
    outsAt0 m c n h (ix3 z s d) = accSum (term m c s d) n := by
  intro n
  induction n using Nat.strong_induction_on with
  | _ n ih =>
    intro h
    by_cases h0 : n % 16 = 0
    · refine (congrFun (outsAt0_A m c ⟨n, h⟩ h0) (ix3 z s d)).trans ?_
      refine (congrFun (out_A (F := Ideal) c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) ((hcond0_0 ⟨n, h⟩).mpr h0) (iblk m c 0 ⟨n, h⟩) (iblk m c 1 ⟨n, h⟩)) (ix3 z s d)).trans ?_
      refine (pay2_apply (iblk m c 1 ⟨n, h⟩) (iblk m c 0 ⟨n, h⟩) (k0_pay1 (F := Ideal)) z s d).trans ?_
      rw [pay1_apply, zero_add, blockSum_eq m c ⟨n, h⟩ s d, accSum_reset _ _ h0]
    · have hlt : n - 1 < n := by omega
      refine (congrFun (outsAt0_B m c ⟨n, h⟩ h0) (ix3 z s d)).trans ?_
      refine (congrFun (out_B (F := Ideal) c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) (fun hh => h0 ((hcond0_0 ⟨n, h⟩).mp hh)) (iblk m c 0 ⟨n, h⟩) (iblk m c 1 ⟨n, h⟩)
        (outsAt0 m c (n - 1) (Nat.lt_of_le_of_lt (Nat.sub_le _ _) h))) (ix3 z s d)).trans ?_
      refine (pay2_apply (iblk m c 1 ⟨n, h⟩) (iblk m c 0 ⟨n, h⟩) (outsAt0 m c (n - 1) (Nat.lt_of_le_of_lt (Nat.sub_le _ _) h)) z s d).trans ?_
      rw [ih (n - 1) hlt, blockSum_eq m c ⟨n, h⟩ s d]
      exact accSum_step _ _ h0

/-! ## The result array -/

/-- What the result array ends holding: in half `p`, the running sum after point `16 p + 15`. -/
def partials (c : Dev nD) : FVec Ideal S2x32x640 .f32 :=
  fun j => accSum (term m c (j 1) (j 2)) (16 * (j 0).val + 15)

/-- What a write-back writes (after the points 15 and 31) is its block of `partials`. -/
theorem flushed_eq (c : Dev nD) (t : Fin cfg0.N) (hf : (cfg0.win 2).flush t = true) :
    (dats m 0 c).flushed 2 t = ((cfg0.win 2).blk t).view.read (Elt Ideal) (partials m c) := by
  have h15 : t.val % 16 = 15 := (flush0_2 t).mp hf
  obtain ⟨-, -, -, -, e4, e5, e6⟩ := idx_facts t
  show (cfg0.win 2).cut (grid0.coords t) ((dats m 0 c).after 2 t) = _
  rw [after0_2]
  funext y
  rw [View.read_apply]
  have hy0 : (y 0).val < 1 := (y 0).isLt
  have h0 : ((((cfg0.win 2).blk t).view.emb y) 0).val = t.val / 16 := by
    show win0_2.index t (0 : Fin 3) * 1 + 1 * (y 0).val = t.val / 16
    rw [e4]; omega
  have h1 : (((cfg0.win 2).blk t).view.emb y) 1 = y 1 := Fin.ext (by
    show win0_2.index t (1 : Fin 3) * 32 + 1 * (y 1).val = (y 1).val
    rw [e5]; omega)
  have h2 : (((cfg0.win 2).blk t).view.emb y) 2 = y 2 := Fin.ext (by
    show win0_2.index t (2 : Fin 3) * 640 + 1 * (y 2).val = (y 2).val
    rw [e6]; omega)
  refine (congrArg (outsAt0 m c t.val t.isLt) (eq_ix3 (y : S1x32x640.Idx))).trans ?_
  refine (outsAt_eq m c (y 0) (y 1) (y 2) t.val t.isLt).trans ?_
  show _ = accSum (term m c ((((cfg0.win 2).blk t).view.emb y) 1) ((((cfg0.win 2).blk t).view.emb y) 2))
    (16 * ((((cfg0.win 2).blk t).view.emb y) 0).val + 15)
  rw [h0, h1, h2]
  congr 1
  omega

/-- An index of the result array is in point `t`'s block iff each coordinate is in the block's range on its axis. -/
theorem mem_blk (t : Fin cfg0.N) (i : S2x32x640.Idx) :
    i ∈ ((cfg0.win 2).blk t).view.set ↔ ∀ a : Fin 3, win0_2.index t a * S1x32x640.size a ≤ (i a).val
      ∧ (i a).val < win0_2.index t a * S1x32x640.size a + S1x32x640.size a := by
  show i ∈ ((View.whole main_call0_v1).slice (win0_2.rect t)).set ↔ _
  rw [View.set_slice_whole, Rect.mem_set_unit]
  exact Iff.rfl

/-- So the result array ends at `partials`: half `p` is covered by the write-back after point `16 p + 15`. -/
theorem final (c : Dev nD) : (dats m 0 c).arrAt 2 cfg0.N = partials m c :=
  (dats m 0 c).arrAt_eq_of_cover 2 (partials m c) (flushed_eq m c) fun i => by
    have hi0 : (i 0).val < 2 := (i 0).isLt
    have hi1 : (i 1).val < 32 := (i 1).isLt
    have hi2 : (i 2).val < 640 := (i 2).isLt
    obtain ⟨t, ht⟩ : ∃ t : Fin cfg0.N, t.val = 16 * (i 0).val + 15 :=
      ⟨⟨16 * (i 0).val + 15, by rw [show cfg0.N = 32 from N_0]; omega⟩, rfl⟩
    obtain ⟨-, -, -, -, e4, e5, e6⟩ := idx_facts t
    refine ⟨t, (flush0_2 t).mpr (by omega), ?_⟩
    rw [mem_blk]
    intro a
    match a with
    | ⟨0, _⟩ =>
      show win0_2.index t (0 : Fin 3) * 1 ≤ (i 0).val ∧ (i 0).val < win0_2.index t (0 : Fin 3) * 1 + 1
      rw [e4]; omega
    | ⟨1, _⟩ =>
      show win0_2.index t (1 : Fin 3) * 32 ≤ (i 1).val ∧ (i 1).val < win0_2.index t (1 : Fin 3) * 32 + 32
      rw [e5]; omega
    | ⟨2, _⟩ =>
      show win0_2.index t (2 : Fin 3) * 640 ≤ (i 2).val ∧ (i 2).val < win0_2.index t (2 : Fin 3) * 640 + 640
      rw [e6]; omega

end Cert.KernelIdeal.KValue

end
-- ==== Proof.Tail.lean ====
/-
  What both programs do with the segment sums, written once.

  From the segment sums `S` (32 segments by 640 columns) and the labels: the number of rows in each segment (ones
  added up segment by segment), the segment means `S / count`, a two-layer perceptron on the means (a product with
  `W1`, a bias, a maximum with zero, a product with `W2`, a bias) and a softmax along the last axis (the row maximum
  subtracted, exponentials, their row sum divided out). The two matrix products carry a precision annotation; over the
  extended reals a product is the exact sum of products whatever the annotation says.
-/
import proofs.«403394_j37160057045590_3_alg».proof.Proof.Gen.ReferenceIdeal
import Idealize.ShloMosaic.PureOps.Ideal.Laws

noncomputable section

namespace Cert.Tail

open Idealize.ShloMosaic Cert.ReferenceIdeal Cert.ReferenceIdeal.Gen

variable {F : FTy → Type} [FloatOps F]

/-- How many rows carry each segment's label: a one per row, added at the row's label. -/
def counts (lab : IVec S131072 32) : FVec F S32 .f32 :=
  Host.scatterAdd scatter_S32_S131072x1_S131072_n_0_0_1 (broadcastInDim S32 ![] bcast_S_S32 (constant S_ .f32 0x00000000#32))
    (broadcastInDim S131072x1 ![0] bcast_S131072_S131072x1_0 lab)
    (broadcastInDim S131072 ![] bcast_S_S131072 (constant S_ .f32 0x3F800000#32))

/-- The perceptron's output on the segment means `sums / counts`. -/
def logits (p : Option ContractPrecision) (sums : FVec F S32x640 .f32) (lab : IVec S131072 32) (W1 : FVec F S640x256 .f32)
    (b1 : FVec F S256 .f32) (W2 : FVec F S256x32 .f32) (b2 : FVec F S32 .f32) : FVec F S32x32 .f32 :=
  addf (Host.dotGeneral dot_S32x256_S256x32_S32x32_1_0_0_1_n_n p
      (maximumf (addf (Host.dotGeneral dot_S32x640_S640x256_S32x256_1_0_0_1_n_n p
          (Host.divf sums (broadcastInDim S32x640 ![0, 1] bcast_S32x1_S32x640_0_1 (broadcastInDim S32x1 ![0] bcast_S32_S32x1_0 (counts lab)))) W1)
        (broadcastInDim S32x256 ![0, 1] bcast_S1x256_S32x256_0_1 (broadcastInDim S1x256 ![1] bcast_S256_S1x256_1 b1)))
        (broadcastInDim S32x256 ![] bcast_S_S32x256 (constant S_ .f32 0x00000000#32))) W2)
    (broadcastInDim S32x32 ![0, 1] bcast_S1x32_S32x32_0_1 (broadcastInDim S1x32 ![1] bcast_S32_S1x32_1 b2))

/-- The exponentials of the entries less their row's maximum. -/
def expShifted (l : FVec F S32x32 .f32) : FVec F S32x32 .f32 :=
  Host.exp (subf l (broadcastInDim S32x32 ![0, 1] bcast_S32x1_S32x32_0_1 (broadcastInDim S32x1 ![0] bcast_S32_S32x1_0
    (maximumf (broadcastInDim S32 ![] bcast_S_S32 (constant S_ .f32 0xFF800000#32))
      (Host.reduce FloatOps.maximumf l (constant S_ .f32 0xFF800000#32) reducesTo_S32x32_S32_d1 h_S_)))))

/-- The softmax along the last axis. -/
def softmax (l : FVec F S32x32 .f32) : FVec F S32x32 .f32 :=
  Host.divf (expShifted l) (broadcastInDim S32x32 ![0, 1] bcast_S32x1_S32x32_0_1 (broadcastInDim S32x1 ![0] bcast_S32_S32x1_0
    (Host.reduceAdd (expShifted l) (constant S_ .f32 0x00000000#32) reducesTo_S32x32_S32_d1 h_S_)))

/-- Over the extended reals the precision annotation of the two products changes nothing. -/
theorem logits_precision (p q : Option ContractPrecision) (sums : FVec Ideal S32x640 .f32) (lab : IVec S131072 32)
    (W1 : FVec Ideal S640x256 .f32) (b1 : FVec Ideal S256 .f32) (W2 : FVec Ideal S256x32 .f32) (b2 : FVec Ideal S32 .f32) :
    logits p sums lab W1 b1 W2 b2 = logits q sums lab W1 b1 W2 b2 := rfl

end Cert.Tail

end
-- ==== Proof.KernelRun.lean ====
/-
  The kernel's results.

  After the region the program adds the two halves of the result array, divides by the segment counts and runs the
  perceptron and the softmax: the shared tail of Tail.lean (its two products annotated with the highest precision), of
  the two halves added. The two halves added are the segment sum: the running sums after the points 15 and 31 cover
  all rows.
-/
import proofs.«403394_j37160057045590_3_alg».proof.Defs
import proofs.«403394_j37160057045590_3_alg».proof.Proof.KernelValue
import proofs.«403394_j37160057045590_3_alg».proof.Proof.Tail

noncomputable section

open scoped BigOperators
open Idealize.ShloMosaic Idealize.ShloMosaic.ValueIdx Idealize.ShloMosaic.TcCoe Idealize.SL.Sem
open Idealize.ShloMosaic.Pipeline (Dat)

namespace Cert.KernelIdeal.KRun

open Cert.KernelIdeal Cert.KernelIdeal.Gen Cert.KernelIdeal.KValue Cert.SegSum

variable (m : (ℓ : Loc nD τ sig) → Buf (Elt Ideal) ℓ) (ρ : Dev nD → PrngReg)

/-- The buffers' contents when the region is left: the pipeline's arrays at what the run leaves, the rest as found. -/
abbrev W (c : Dev nD) : Valuation τ sig (Elt Ideal) :=
  Pipeline.withArrays (cfgs 0).spec c (V0 m c) (fun w => (dats m 0 c).arrAt w (cfgs 0).N)

set_option maxHeartbeats 2000000 in
/-- The first result after the lines that follow the region: the shared tail of the result array's two halves added,
    every buffer read as the region leaves it. -/
theorem tail_W (c : Dev nD) : Pipeline.afterTail₀ cfgs (dats m) 0 (V0 m) [hostOps1] c main_v0_0
    = Cert.Tail.softmax (F := Ideal) (Cert.Tail.logits (F := Ideal) (some .fp32)
        (Host.reduceAdd (W m c (Proc.devRef .tc main_call0_v1)) (constant (F := Ideal) S_ .f32 0x00000000#32) reducesTo_S2x32x640_S32x640_d0 h_S_)
        (W m c (Proc.devRef .tc main_arg1)) (W m c (Proc.devRef .tc main_arg2)) (W m c (Proc.devRef .tc main_arg3))
        (W m c (Proc.devRef .tc main_arg4)) (W m c (Proc.devRef .tc main_arg5))) := by
  unfold Pipeline.afterTail₀
  simp only [List.flatten_cons, List.flatten_nil, List.append_nil]
  after_results_simp
  rfl

/-- The result array as the region leaves it, and the arguments the region does not touch. -/
theorem W_partials (c : Dev nD) : W m c (Proc.devRef .tc main_call0_v1) = partials m c :=
  (Pipeline.withArrays_arr spec0 launch0.win.arr_inj c _ _ 2).trans (final m c)
theorem W_arg1 (c : Dev nD) : W m c (Proc.devRef .tc main_arg1) = m ((c.tc : Thread nD τ).loc main_arg1) :=
  (Pipeline.withArrays_of_ne _ c (V0 m c) _ main_arg1 (by exact (by decide : ∀ w, Pipeline.arrRef spec0 w ≠ main_arg1))).trans (V_main_arg1 m c)
theorem W_arg2 (c : Dev nD) : W m c (Proc.devRef .tc main_arg2) = m ((c.tc : Thread nD τ).loc main_arg2) :=
  (Pipeline.withArrays_of_ne _ c (V0 m c) _ main_arg2 (by exact (by decide : ∀ w, Pipeline.arrRef spec0 w ≠ main_arg2))).trans (V_main_arg2 m c)
theorem W_arg3 (c : Dev nD) : W m c (Proc.devRef .tc main_arg3) = m ((c.tc : Thread nD τ).loc main_arg3) :=
  (Pipeline.withArrays_of_ne _ c (V0 m c) _ main_arg3 (by exact (by decide : ∀ w, Pipeline.arrRef spec0 w ≠ main_arg3))).trans (V_main_arg3 m c)
theorem W_arg4 (c : Dev nD) : W m c (Proc.devRef .tc main_arg4) = m ((c.tc : Thread nD τ).loc main_arg4) :=
  (Pipeline.withArrays_of_ne _ c (V0 m c) _ main_arg4 (by exact (by decide : ∀ w, Pipeline.arrRef spec0 w ≠ main_arg4))).trans (V_main_arg4 m c)
theorem W_arg5 (c : Dev nD) : W m c (Proc.devRef .tc main_arg5) = m ((c.tc : Thread nD τ).loc main_arg5) :=
  (Pipeline.withArrays_of_ne _ c (V0 m c) _ main_arg5 (by exact (by decide : ∀ w, Pipeline.arrRef spec0 w ≠ main_arg5))).trans (V_main_arg5 m c)

/-- THE TWO HALVES ADDED are the segment sum: zero plus the running sums after the points 15 and 31, which together
    cover every row. -/
theorem halves_eq_segSum (c : Dev nD) :
    Host.reduceAdd (partials m c) (constant (F := Ideal) S_ .f32 0x00000000#32) reducesTo_S2x32x640_S32x640_d0 h_S_
      = segSum (xarr m c) (labs m c) := by
  funext i
  obtain ⟨s, d, rfl⟩ : ∃ (s : Fin 32) (d : Fin 640), i = ix2 s d := ⟨i 0, i 1, eq_ix2 i⟩
  show Ideal.hostReduceAdd reducesTo_S2x32x640_S32x640_d0 (partials m c) (Ideal.ofBits .f32 0x00000000#32) (ix2 s d) = _
  rw [Ideal.hostReduceAdd_single reducesTo_S2x32x640_S32x640_d0 (by decide : S2x32x640.Reduces [0] S32x640),
    Ideal.ofBits_zero_f32, zero_add]
  show (∑ k : Fin 2, partials m c ((by decide : S2x32x640.Reduces [0] S32x640).lift (ix2 s d) k)) = _
  rw [Fin.sum_univ_two]
  exact accSum_total (term m c s d)

/-- The kernel's first result: the shared tail of the segment sums. -/
def result (c : Dev nD) : Buf (Elt Ideal) ((c.tc : Thread nD τ).loc main_v0_0) :=
  Cert.Tail.softmax (F := Ideal) (Cert.Tail.logits (F := Ideal) none (segSum (xarr m c) (labs m c)) (labs m c)
    (m ((c.tc : Thread nD τ).loc main_arg2)) (m ((c.tc : Thread nD τ).loc main_arg3))
    (m ((c.tc : Thread nD τ).loc main_arg4)) (m ((c.tc : Thread nD τ).loc main_arg5)))

theorem tail_eq (c : Dev nD) : Pipeline.afterTail₀ cfgs (dats m) 0 (V0 m) [hostOps1] c main_v0_0 = result m c := by
  rw [tail_W, W_partials, W_arg1, W_arg2, W_arg3, W_arg4, W_arg5, halves_eq_segSum]
  rfl

set_option maxHeartbeats 2000000 in
/-- The second result: the segment numbers. -/
theorem ids_eq (c : Dev nD) : Pipeline.afterTail₀ cfgs (dats m) 0 (V0 m) [hostOps1] c main_v0_1 = iotaInDim S32 32 0 := by
  unfold Pipeline.afterTail₀
  simp only [List.flatten_cons, List.flatten_nil, List.append_nil]
  after_results_simp
  rfl

/-- THE KERNEL'S RUN, read: every weakly fair execution terminates with the first result at the shared tail of the
    segment sums, the second at the segment numbers, and the arguments unchanged. -/
theorem run : θ_run defs (onTc (τ := τ) (main (F := Ideal))) ⟨m, fun _ => 0, ρ⟩ (fun r => ∀ c : Dev nD,
      r.2.mem ((c.tc : Thread nD τ).loc main_v0_0) = result m c
      ∧ r.2.mem ((c.tc : Thread nD τ).loc main_v0_1) = iotaInDim S32 32 0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v0_0 (Pipeline.mem_restRefs_of main_v0_0 (by decide) (by decide))).trans (tail_eq m c),
      ((h c).2 main_v0_1 (Pipeline.mem_restRefs_of main_v0_1 (by decide) (by decide))).trans (ids_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KRun

end
-- ==== Proof.RefValue.lean ====
/-
  The reference's segment sums.

  The reference adds every row of the table into the row of the result its label names (an accumulating scatter from a
  zero table). Read at an entry `(s, d)` of the result this is zero plus the sum of the table entries whose landing
  place is `(s, d)`; the landing place of the entry `(r, d')` is `(label r, d')`, the label read as a SIGNED integer and
  not clamped, and an entry whose landing place is outside the 32 rows is dropped. A label is the word `s` of a segment
  number `s < 32` exactly when its signed reading is `s`, so the scatter is the segment sum of SegSum.lean; and the rest
  of the reference is the shared tail of Tail.lean.
-/
import proofs.«403394_j37160057045590_3_alg».proof.Defs
import proofs.«403394_j37160057045590_3_alg».proof.Proof.Gen.ReferenceIdeal.Run
import proofs.«403394_j37160057045590_3_alg».proof.Proof.SegSum
import proofs.«403394_j37160057045590_3_alg».proof.Proof.Tail

noncomputable section

open scoped BigOperators

namespace Cert.ReferenceIdeal.RefValue

open Idealize.ShloMosaic Idealize.ShloMosaic.ValueIdx Idealize.ShloMosaic.TcCoe Idealize.SL.Sem
open Cert.ReferenceIdeal Cert.ReferenceIdeal.Gen

/-- The scatter's dimension numbers: the index vector names the result's row, the update's column is the window. -/
abbrev D := scatter_S32x640_S131072x1_S131072x640_1_0_0_1

/-! ## Where an entry lands -/

theorem window0 (j : S131072x640.Idx) : D.window j 0 = 0 := rfl
theorem window1 (j : S131072x640.Idx) : D.window j 1 = (j 1).val := rfl
theorem start1 (j : S131072x640.Idx) (idx : IVec S131072x1 32) : D.start j idx 1 = 0 := rfl
/-- The row an entry starts at is its row's index word, read signed. -/
theorem start0 (j : S131072x640.Idx) (idx : IVec S131072x1 32) : D.start j idx 0 = (idx (ix2 (j 0) 0)).toInt := by
  unfold ScatterDims.start
  rw [dif_pos (show (0 : Fin S32x640.rank) ∈ D.scatterDimsToOperandDims by decide)]
  congr 2
  funext b
  match b with
  | ⟨0, _⟩ => rfl
  | ⟨1, _⟩ => rfl

/-- A word is the word of `s < 32` exactly when its signed reading is `s`. -/
theorem toInt_eq_iff (l : BitVec 32) (s : Fin 32) : l.toInt = (s.val : ℤ) ↔ l = BitVec.ofNat 32 s.val := by
  have hs : (BitVec.ofNat 32 s.val).toInt = (s.val : ℤ) := by
    revert s; decide
  constructor
  · intro h; exact BitVec.eq_of_toInt_eq (h.trans hs.symm)
  · rintro rfl; exact hs

/-- The entry `j = (r, d')` lands at `(s, d)` exactly when row `r`'s index word is the word `s` and `d' = d`. -/
theorem resultIdx_iff (j : S131072x640.Idx) (idx : IVec S131072x1 32) (s : Fin 32) (d : Fin 640) :
    D.resultIdx? j idx = some (ix2 s d) ↔ (idx (ix2 (j 0) 0) = BitVec.ofNat 32 s.val ∧ (j 1 : Fin 640) = d) := by
  have h1 : (j 1).val < 640 := (j 1).isLt
  unfold ScatterDims.resultIdx?
  split
  · rename_i h
    have h0 := h 0
    rw [start0, window0] at h0
    rw [Option.some.injEq, ← toInt_eq_iff]
    constructor
    · intro e
      have e0 : ((D.start j idx 0 + (D.window j 0 : ℤ)).toNat) = s.val := congrArg (fun f : S32x640.Idx => (f 0).val) e
      have e1 : ((D.start j idx 1 + (D.window j 1 : ℤ)).toNat) = d.val := congrArg (fun f : S32x640.Idx => (f 1).val) e
      rw [start0, window0] at e0
      rw [start1, window1] at e1
      exact ⟨by omega, Fin.ext (by omega)⟩
    · rintro ⟨e0, e1⟩
      funext a
      apply Fin.ext
      match a with
      | ⟨0, _⟩ =>
        show (D.start j idx 0 + (D.window j 0 : ℤ)).toNat = s.val
        rw [start0, window0]; omega
      | ⟨1, _⟩ =>
        show (D.start j idx 1 + (D.window j 1 : ℤ)).toNat = d.val
        rw [start1, window1, ← e1]; omega
  · rename_i h
    rw [← toInt_eq_iff]
    constructor
    · intro e; cases e
    · rintro ⟨e0, e1⟩
      exfalso
      apply h
      intro a
      match a with
      | ⟨0, _⟩ =>
        show 0 ≤ D.start j idx 0 + (D.window j 0 : ℤ) ∧ D.start j idx 0 + (D.window j 0 : ℤ) < 32
        rw [start0, window0, e0]; have := s.isLt; omega
      | ⟨1, _⟩ =>
        show 0 ≤ D.start j idx 1 + (D.window j 1 : ℤ) ∧ D.start j idx 1 + (D.window j 1 : ℤ) < 640
        rw [start1, window1]; omega

/-! ## The scatter is the segment sum -/

/-- The reference's accumulating scatter of the table `x` from the zero table, by the labels broadcast to index vectors,
    is the segment sum: each result entry is zero plus the sum of the table entries that land on it. -/
theorem scatter_eq_segSum (x : FVec Ideal S131072x640 .f32) (lab : IVec S131072 32) :
    Host.scatterAdd D (broadcastInDim S32x640 ![] bcast_S_S32x640 (constant (F := Ideal) S_ .f32 0x00000000#32))
      (broadcastInDim S131072x1 ![0] bcast_S131072_S131072x1_0 lab) x
    = Cert.SegSum.segSum x lab := by
  funext i
  obtain ⟨s, d, rfl⟩ : ∃ (s : Fin 32) (d : Fin 640), i = ix2 s d := ⟨i 0, i 1, eq_ix2 i⟩
  show Ideal.hostScatterAdd D _ _ x (ix2 s d) = _
  unfold Ideal.hostScatterAdd
  have hzero : broadcastInDim S32x640 ![] bcast_S_S32x640 (constant (F := Ideal) S_ .f32 0x00000000#32) (ix2 s d) = 0 :=
    Ideal.ofBits_zero_f32
  rw [hzero, zero_add]
  refine Cert.SegSum.sum_filter_eq_segSum x lab s d _ fun j => ?_
  rw [resultIdx_iff]
  have hl : broadcastInDim S131072x1 ![0] bcast_S131072_S131072x1_0 lab (ix2 (j 0) 0) = lab (ix1 (j 0)) := by
    unfold broadcastInDim
    congr 1
    funext a
    match a with
    | ⟨0, _⟩ => rfl
  rw [hl]

/-! ## The reference's result -/

/-- The reference's first result is the shared tail of its segment sums. -/
theorem result_eq (m : (ℓ : Loc nD τ sig) → Buf (Elt Ideal) ℓ) (c : Dev nD) :
    Cert.ReferenceIdeal.Value.res_main_v29 m c
      = Cert.Tail.softmax (F := Ideal) (Cert.Tail.logits (F := Ideal) none
          (Cert.SegSum.segSum (m ((c.tc : Thread nD τ).loc main_arg0)) (m ((c.tc : Thread nD τ).loc main_arg1)))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))) := by
  rw [← scatter_eq_segSum]
  unfold Cert.ReferenceIdeal.Value.res_main_v29
  rfl

end Cert.ReferenceIdeal.RefValue

end
-- ==== Proof.lean ====
/-
  A segment mean, a small perceptron and a softmax: the kernel against its reference, over the extended reals.

  Both programs take a table `x` of 131072 rows by 640 columns, a label word per row, and the perceptron's weights.
  The segment sum of segment `s < 32` adds the rows labelled `s`; both programs divide it by the number of such rows,
  push the 32 means through `max(· W1 + b1, 0) W2 + b2` and take a softmax along the last axis; the second result is
  the segment numbers `0 … 31`.

  They differ in how the segment sums are formed.
  * The reference scatters: every row is added into the result row its label names, the label read signed and not
    clamped, a row whose label names no result row dropped (RefValue.lean).
  * The kernel multiplies: on a grid of 2 × 16 points it takes 4096 rows at a time, builds the rows' one-hot weights
    (label = lane number, as 0 or 1), contracts weights and rows over the row axis, and accumulates the 32 × 640
    product in an output block that is reset at the first point of each half and written back after its last; the two
    halves are added afterwards (KernelPieces.lean, KernelSteps.lean, KernelValue.lean, KernelRun.lean).
  A label is the word of a lane number `s < 32` exactly when its signed reading is `s`, and a zero weight times any
  extended real is zero, so both are the sum over ALL rows of weight times entry (SegSum.lean): sums of extended reals
  may be cut into blocks and regrouped freely, which is all the kernel's tiling does. No input needs to be finite for
  this, and no label needs to be in range. What follows the segment sums is the same text in both programs up to the
  precision annotation of the two products, which means nothing over the extended reals (Tail.lean).

  The ideal pass rewrote nothing, so the kernel's idealization is its own text and `preserves` is trivial. The three
  frames are the generated ones (the reference's is its generated run with the results dropped).
-/
import proofs.«403394_j37160057045590_3_alg».proof.Defs
import proofs.«403394_j37160057045590_3_alg».proof.Proof.Gen.Kernel
import proofs.«403394_j37160057045590_3_alg».proof.Proof.Gen.Kernel.Skeleton
import proofs.«403394_j37160057045590_3_alg».proof.Proof.Gen.Kernel.Launch
import proofs.«403394_j37160057045590_3_alg».proof.Proof.Gen.Kernel.Points
import proofs.«403394_j37160057045590_3_alg».proof.Proof.Gen.Kernel.Frame
import proofs.«403394_j37160057045590_3_alg».proof.Proof.Gen.KernelIdeal
import proofs.«403394_j37160057045590_3_alg».proof.Proof.Gen.KernelIdeal.Skeleton
import proofs.«403394_j37160057045590_3_alg».proof.Proof.Gen.KernelIdeal.Launch
import proofs.«403394_j37160057045590_3_alg».proof.Proof.Gen.KernelIdeal.Points
import proofs.«403394_j37160057045590_3_alg».proof.Proof.Gen.KernelIdeal.Frame
import proofs.«403394_j37160057045590_3_alg».proof.Proof.Gen.ReferenceIdeal
import proofs.«403394_j37160057045590_3_alg».proof.Proof.Gen.ReferenceIdeal.Run
import proofs.«403394_j37160057045590_3_alg».proof.Proof.Gen.Pre_finite_inputs
import proofs.«403394_j37160057045590_3_alg».proof.Proof.KernelRun
import proofs.«403394_j37160057045590_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From arguments that agree, the kernel ends at the shared tail of the segment sums (its run, KernelRun.lean) and so
    does the reference (RefValue.lean); the second results are the same segment numbers. -/
theorem algebraic : Cert.algebraic_KernelIdeal_ReferenceIdeal := by
  intro m ρ m' ρ' _ hagree
  refine ⟨fun c => Cert.KernelIdeal.KRun.result m c, fun _ => iotaInDim Cert.KernelIdeal.S32 32 0,
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2.1,
    (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
